-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S100000x128 .f32) (main_arg1 : FVec F S128x128 .f32) (main_arg2 : FVec F S128x128 .f32) (main_arg3 : FVec F S128 .f32) (main_arg4 : IVec S1600000 32) (main_arg5 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S5000x128 : Shape := ⟨2, ![5000, 128]⟩
abbrev S5000x1 : Shape := ⟨2, ![5000, 1]⟩
abbrev S1x128 : Shape := ⟨2, ![1, 128]⟩

abbrev nBuf : Space → Nat
  | .hbm => 27
  | .vmem => 11
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128x128, .f32⟩
  | .hbm, ⟨3, _⟩ => ⟨S128, .f32⟩
  | .hbm, ⟨4, _⟩ => ⟨S1600000, .i32⟩
  | .hbm, ⟨5, _⟩ => ⟨S1600000, .i32⟩
  | .hbm, ⟨6, _⟩ => ⟨S_, .i32⟩
  | .hbm, ⟨7, _⟩ => ⟨S1600000, .i32⟩
  | .hbm, ⟨8, _⟩ => ⟨S1600000, .i1⟩
  | .hbm, ⟨9, _⟩ => ⟨S_, .i32⟩
  | .hbm, ⟨10, _⟩ => ⟨S1600000, .i32⟩
  | .hbm, ⟨11, _⟩ => ⟨S1600000, .i32⟩
  | .hbm, ⟨12, _⟩ => ⟨S1600000, .i32⟩
  | .hbm, ⟨13, _⟩ => ⟨S1600000x1, .i32⟩
  | .hbm, ⟨14, _⟩ => ⟨S1600000x128, .f32⟩
  | .hbm, ⟨15, _⟩ => ⟨S_, .f32⟩
  | .hbm, ⟨16, _⟩ => ⟨S100000x128, .f32⟩
  | .hbm, ⟨17, _⟩ => ⟨S1600000x1, .i32⟩
  | .hbm, ⟨18, _⟩ => ⟨S100000x128, .f32⟩
  | .hbm, ⟨19, _⟩ => ⟨S_, .f32⟩
  | .hbm, ⟨20, _⟩ => ⟨S1600000, .f32⟩
  | .hbm, ⟨21, _⟩ => ⟨S_, .f32⟩
  | .hbm, ⟨22, _⟩ => ⟨S100000, .f32⟩
  | .hbm, ⟨23, _⟩ => ⟨S1600000x1, .i32⟩
  | .hbm, ⟨24, _⟩ => ⟨S100000, .f32⟩
  | .hbm, ⟨25, _⟩ => ⟨S100000x1, .f32⟩
  | .hbm, ⟨26, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .f32⟩
  | .local _ .vmem, ⟨7, _⟩ => ⟨S128x128, .f32⟩
  | .local _ .vmem, ⟨8, _⟩ => ⟨S128, .f32⟩
  | .local _ .vmem, ⟨9, _⟩ => ⟨S5000x128, .f32⟩
  | .local _ .vmem, ⟨10, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v15) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 37
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128x128, .f32⟩
  | .hbm, ⟨3, _⟩ => ⟨S128, .f32⟩
  | .hbm, ⟨4, _⟩ => ⟨S1600000, .i32⟩
  | .hbm, ⟨5, _⟩ => ⟨S1600000, .i32⟩
  | .hbm, ⟨6, _⟩ => ⟨S_, .i32⟩
  | .hbm, ⟨7, _⟩ => ⟨S1600000, .i32⟩
  | .hbm, ⟨8, _⟩ => ⟨S1600000, .i1⟩
  | .hbm, ⟨9, _⟩ => ⟨S_, .i32⟩
  | .hbm, ⟨10, _⟩ => ⟨S1600000, .i32⟩
  | .hbm, ⟨11, _⟩ => ⟨S1600000, .i32⟩
  | .hbm, ⟨12, _⟩ => ⟨S1600000, .i32⟩
  | .hbm, ⟨13, _⟩ => ⟨S1600000x1, .i32⟩
  | .hbm, ⟨14, _⟩ => ⟨S1600000x128, .f32⟩
  | .hbm, ⟨15, _⟩ => ⟨S_, .f32⟩
  | .hbm, ⟨16, _⟩ => ⟨S100000x128, .f32⟩
  | .hbm, ⟨17, _⟩ => ⟨S1600000x1, .i32⟩
  | .hbm, ⟨18, _⟩ => ⟨S100000x128, .f32⟩
  | .hbm, ⟨19, _⟩ => ⟨S_, .f32⟩
  | .hbm, ⟨20, _⟩ => ⟨S1600000, .f32⟩
  | .hbm, ⟨21, _⟩ => ⟨S_, .f32⟩
  | .hbm, ⟨22, _⟩ => ⟨S100000, .f32⟩
  | .hbm, ⟨23, _⟩ => ⟨S1600000x1, .i32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S100000x128, .f32⟩
  | .hbm, ⟨30, _⟩ => ⟨S100000x128, .f32⟩
  | .hbm, ⟨31, _⟩ => ⟨S100000x128, .f32⟩
  | .hbm, ⟨32, _⟩ => ⟨S100000x128, .f32⟩
  | .hbm, ⟨33, _⟩ => ⟨S100000x128, .f32⟩
  | .hbm, ⟨34, _⟩ => ⟨S1x128, .f32⟩
  | .hbm, ⟨35, _⟩ => ⟨S100000x128, .f32⟩
  | .hbm, ⟨36, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.LibPlainMatmul.lean ====
/-
  The product of an M × K matrix by a K × N matrix read at one element, for the vector unit's product accumulated into
  a zero matrix: row e, column j is the sum over k of the left matrix at (e, k) times the right matrix at (k, j). At
  the ideal values.
-/
import Idealize.ShloMosaic.PureOps.Ideal.Laws
import Idealize.ShloMosaic.Lib.ValueIdx
import Idealize.ShloMosaic.Lib.KernelVsHost
import Idealize.ShloMosaic.Lib.StackMember

noncomputable section

open Idealize.ShloMosaic Idealize.ShloMosaic.ValueIdx

namespace Cert.LibPlainMatmul

/-- The product accumulated into a zero matrix, at row e and column j. -/
theorem matmul_plain_apply {M K N : ℕ} {φ₁ φ₂ : FTy} (prec : Option ContractPrecision)
    (l : FVec Ideal ⟨2, ![M, K]⟩ φ₁) (r : FVec Ideal ⟨2, ![K, N]⟩ φ₂) (e : Fin M) (j : Fin N) :
    matmul (DotDims.plain M K N) prec l r (constant (⟨2, ![M, N]⟩ : Shape) .f32 0x00000000#32) (ix2 e j)
      = ∑ k : Fin K, l (ix2 e k) * r (ix2 k j) := by
  rw [matmul_zero_eq_dotGeneral]
  exact StackMember.dotGeneral_plain_apply prec l r e j

/-- The host's product, at row e and column j. -/
theorem dotGeneral_plain_apply {M K N : ℕ} {φ₁ φ₂ : FTy} (prec : Option ContractPrecision)
    (l : FVec Ideal ⟨2, ![M, K]⟩ φ₁) (r : FVec Ideal ⟨2, ![K, N]⟩ φ₂) (e : Fin M) (j : Fin N) :
    Host.dotGeneral (DotDims.plain M K N) prec l r (ix2 e j) = ∑ k : Fin K, l (ix2 e k) * r (ix2 k j) :=
  StackMember.dotGeneral_plain_apply prec l r e j

end Cert.LibPlainMatmul

end
-- ==== Proof.LibKeepdimsColumn.lean ====
/-
  Reading a row reduction kept as a column. A kernel that writes `sum(x, axis=-1, keepdims=True)` over an `[a, b]`
  block produces an `[a]` vector of lane sums, casts it to the column `[a, 1]`, works on the column, and
  broadcasts it back over the `b` lanes. Three index-level readings, at the extended reals, over generic extents:
  the cast to a column, the broadcast of a column over the lanes, and the lane sum itself as a `Fin b`-indexed sum.
-/
import Idealize.ShloMosaic.Lib.Pipeline.Value
import Idealize.ShloMosaic.Lib.ValueIdx
import Idealize.ShloMosaic.PureOps.Ideal.Laws

namespace Cert.KeepdimsColumn

open Idealize.ShloMosaic Idealize.ShloMosaic.ValueIdx

variable {α : Type}

/-- An `[a]` array cast to the column `[a, 1]` reads, at `(p, u)`, the operand at `p`: both sit at row-major
    position `p`. -/
theorem shapeCast_a_a1_apply {a : ℕ} (v : (⟨1, ![a]⟩ : Shape).Idx → α) (h : (⟨1, ![a]⟩ : Shape).ShapeCasts ⟨2, ![a, 1]⟩)
    (p : Fin a) (u : Fin 1) : shapeCast ⟨2, ![a, 1]⟩ v h (ix2 p u) = v (ix1 p) :=
  shapeCast_apply v h _ _ (by
    have hu : u.val = 0 := by omega
    rw [Shape.rowMajor_val_one, Shape.rowMajor_val_two]
    show p.val = p.val * 1 + u.val
    rw [hu, Nat.mul_one, Nat.add_zero])

/-- A column `[a, 1]` broadcast to `[a, b]` reads, at `(p, c)`, the column's entry of row `p`, whatever the lane `c`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The lane sum of an `[a, b]` vector, read at row `p` on the extended reals, is the sum over the `b` lanes of
    that row: the source index over `p` with lane `k` inserted is `(p, k)`. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  exact Finset.sum_congr rfl fun k _ => congrArg src (funext fun c => Fin.ext (by
    match c with
    | ⟨0, _⟩ => rfl
    | ⟨1, _⟩ => rfl))

end Cert.KeepdimsColumn
-- ==== Proof.LibMeanLayer.lean ====
/-
  One layer of a graph network that averages over neighbours, without an activation, over the extended reals.

  Every node n has its own feature row x(n, ·), the sum a(n, ·) of its neighbours' feature rows, and the number d(n) of
  its neighbours. The neighbour average is a(n, k) / max(d(n), 1): a node without neighbours has an all-zero sum and is
  divided by one. Entry (n, j) of the layer's result is

      ( ∑ₖ (a(n, k) / max(d(n), 1)) · wl(k, j)  +  ∑ₖ x(n, k) · wr(k, j) )  +  b(j),

  with two weight matrices kept with one column per output feature and a bias vector. The grouping is the one both a
  matrix unit and a host program use: the two products are added first, the bias last.

  Here: that entry as a function of two rows, two weight columns, a count and a bias entry; the whole layer; and the
  matrix unit's form of one block of rows read at an entry (the count kept as a column, compared with a splat one,
  broadcast over the lanes, divided into the sums; two products into zero accumulators; the bias cast to a one-row
  matrix and broadcast over the rows).
-/
import Idealize.ShloMosaic.PureOps.Ideal.Laws
import Idealize.ShloMosaic.Lib.ValueIdx
import Idealize.ShloMosaic.Lib.ValueLayout
import Idealize.ShloMosaic.Lib.Pipeline.Value
import proofs.«102647_j30081950941520_1_alg».proof.Proof.LibPlainMatmul
import proofs.«102647_j30081950941520_1_alg».proof.Proof.LibKeepdimsColumn

noncomputable section

open Idealize.ShloMosaic Idealize.ShloMosaic.ValueIdx

namespace Cert.LibMeanLayer

/-- One entry of the layer from the node's two rows, its neighbour count, the output feature's two weight columns and
    its bias entry; `one` is the value the count is compared with. -/
def meanEntry {K : ℕ} (one : EReal) (a x : Fin K → EReal) (d : EReal) (wl wr : Fin K → EReal) (b : EReal) : EReal :=
  ((∑ k : Fin K, Ideal.div (a k) (max d one) * wl k) + ∑ k : Fin K, x k * wr k) + b

/-- An entry depends on its rows, columns, count and bias entry only through their values. -/
theorem meanEntry_congr {K : ℕ} (one : EReal) {a a' x x' wl wl' wr wr' : Fin K → EReal} {d d' b b' : EReal}
    (ha : ∀ k, a k = a' k) (hx : ∀ k, x k = x' k) (hd : d = d') (hwl : ∀ k, wl k = wl' k) (hwr : ∀ k, wr k = wr' k)
    (hb : b = b') : meanEntry one a x d wl wr b = meanEntry one a' x' d' wl' wr' b' := by
  rw [funext ha, funext hx, hd, funext hwl, funext hwr, hb]

/-- The whole layer: entry (n, j) from rows n of the two node matrices, the count of node n, columns j of the two weight
    matrices and entry j of the bias. -/
def meanLayer {N K D : ℕ} (one : EReal) (a x : (⟨2, ![N, K]⟩ : Shape).Idx → EReal) (deg : (⟨1, ![N]⟩ : Shape).Idx → EReal)
    (wl wr : (⟨2, ![K, D]⟩ : Shape).Idx → EReal) (b : (⟨1, ![D]⟩ : Shape).Idx → EReal) : (⟨2, ![N, D]⟩ : Shape).Idx → EReal :=
  fun i => meanEntry one (fun k => a (ix2 (n0 := N) (i 0) k)) (fun k => x (ix2 (n0 := N) (i 0) k)) (deg (ix1 (n := N) (i 0)))
    (fun k => wl (ix2 (n1 := D) k (i 1))) (fun k => wr (ix2 (n1 := D) k (i 1))) (b (ix1 (n := D) (i 1)))

theorem meanLayer_ix2 {N K D : ℕ} (one : EReal) (a x : (⟨2, ![N, K]⟩ : Shape).Idx → EReal) (deg : (⟨1, ![N]⟩ : Shape).Idx → EReal)
    (wl wr : (⟨2, ![K, D]⟩ : Shape).Idx → EReal) (b : (⟨1, ![D]⟩ : Shape).Idx → EReal) (n : Fin N) (j : Fin D) :
    meanLayer one a x deg wl wr b (ix2 n j) = meanEntry one (fun k => a (ix2 n k)) (fun k => x (ix2 n k)) (deg (ix1 n))
      (fun k => wl (ix2 k j)) (fun k => wr (ix2 k j)) (b (ix1 j)) := rfl

/-- The matrix unit's layer on a block of M rows, at row e and output feature j: the count column compared with a splat
    `one`, broadcast over the K lanes and divided into the neighbour sums; that quotient and the node's own rows each
    multiplied into a zero accumulator; the two products added; the bias, cast to a one-row matrix and broadcast over the
    rows, added last. -/
theorem unit_meanLayer_apply {M K N : ℕ} (d : FVec Ideal ⟨2, ![M, 1]⟩ .f32) (a x : FVec Ideal ⟨2, ![M, K]⟩ .f32)
    (wl wr : FVec Ideal ⟨2, ![K, N]⟩ .f32) (b : FVec Ideal ⟨1, ![N]⟩ .f32) (one : Ideal .f32)
    (hd : (⟨2, ![M, 1]⟩ : Shape).Broadcasts ⟨2, ![M, K]⟩) (hc : (⟨1, ![N]⟩ : Shape).ShapeCasts ⟨2, ![1, N]⟩)
    (hb : (⟨2, ![1, N]⟩ : Shape).Broadcasts ⟨2, ![M, N]⟩) (e : Fin M) (j : Fin N) :
    addf (addf
        (matmul (DotDims.plain M K N) none
          (divf a (broadcastTo (⟨2, ![M, K]⟩ : Shape) (maximumf d (broadcast (⟨2, ![M, 1]⟩ : Shape) one)) hd))
          wl (constant (⟨2, ![M, N]⟩ : Shape) .f32 0x00000000#32))
        (matmul (DotDims.plain M K N) none x wr (constant (⟨2, ![M, N]⟩ : Shape) .f32 0x00000000#32)))
        (broadcastTo (⟨2, ![M, N]⟩ : Shape) (shapeCast (⟨2, ![1, N]⟩ : Shape) b hc) hb) (ix2 e j)
      = meanEntry one (fun k => a (ix2 e k)) (fun k => x (ix2 e k)) (d (ix2 e (0 : Fin 1)))
          (fun k => wl (ix2 k j)) (fun k => wr (ix2 k j)) (b (ix1 j)) := by
  unfold meanEntry
  rw [addf_apply, addf_apply, broadcastTo_1b_ab_apply, shapeCast_a_1a_apply,
    Cert.LibPlainMatmul.matmul_plain_apply, Cert.LibPlainMatmul.matmul_plain_apply]
  -- the quotient's row e at lane k: the sum at (e, k) over the larger of the count of row e and `one`
  have quot : ∀ k : Fin K,
      divf a (broadcastTo (⟨2, ![M, K]⟩ : Shape) (maximumf d (broadcast (⟨2, ![M, 1]⟩ : Shape) one)) hd) (ix2 e k)
        = Ideal.div (a (ix2 e k)) (max (d (ix2 e (0 : Fin 1))) one) := fun k => by
    rw [divf_apply, Cert.KeepdimsColumn.broadcastTo_a1_ab_apply, maximumf_apply, broadcast_apply]
  simp only [quot]

end Cert.LibMeanLayer

end
-- ==== Proof.KernelBlock.lean ====
/-
  What the kernel body stores, at one entry of its block.

  At a grid point the body holds a block of 5000 nodes: their own feature rows x, their neighbour sums a, their
  neighbour counts d as a column, and the whole of the two weight matrices w, r and of the bias b. It replaces each count
  by the larger of it and one, lays that column out over the 128 lanes, divides the sums by it, multiplies the quotient
  by w and the rows x by r, each product into a zero accumulator, adds the two products, and adds the bias laid out over
  the rows. Entry (e, j) of what it stores is

      ( ∑ₖ (a(e, k) / max(d(e), 1)) · w(k, j)  +  ∑ₖ x(e, k) · r(k, j) )  +  b(j).
-/
import proofs.«102647_j30081950941520_1_alg».proof.Proof.Gen.KernelIdeal.Skeleton
import proofs.«102647_j30081950941520_1_alg».proof.Proof.LibMeanLayer

noncomputable section

open Idealize.ShloMosaic Idealize.ShloMosaic.ValueIdx

namespace Cert.KernelIdeal.Block

open Cert.KernelIdeal Cert.KernelIdeal.Gen

/-- The value a neighbour count is compared with: the float one. -/
abbrev one32 : EReal := Ideal.ofBits .f32 0x3F800000#32

/-- The body's two products contract the left operand's lanes with the right operand's rows: the plain product of a
    5000 × 128 matrix by a 128 × 128 matrix. -/
theorem dims_plain : dot_S5000x128_S128x128_S5000x128_1_0_0_1_n_n = DotDims.plain 5000 128 128 := rfl

/-- Entry (e, j) of the stored block, from row e of the sums and of the features, the count of row e, columns j of the two
    weight matrices and entry j of the bias. -/
theorem payload_apply (d : FVec Ideal S5000x1 .f32) (a : FVec Ideal S5000x128 .f32) (w : FVec Ideal S128x128 .f32)
    (x : FVec Ideal S5000x128 .f32) (r : FVec Ideal S128x128 .f32) (b : FVec Ideal S128 .f32) (e : Fin 5000) (j : Fin 128) :
    k0_pay1 (F := Ideal) d a w x r b (ix2 e j)
      = Cert.LibMeanLayer.meanEntry one32 (fun k => a (ix2 e k)) (fun k => x (ix2 e k)) (d (ix2 e (0 : Fin 1)))
          (fun k => w (ix2 k j)) (fun k => r (ix2 k j)) (b (ix1 j)) := by
  unfold k0_pay1
  rw [shapeCast_self, shapeCast_self, dims_plain]
  exact Cert.LibMeanLayer.unit_meanLayer_apply d a x w r b one32 _ _ _ e j

end Cert.KernelIdeal.Block

end
-- ==== Proof.KernelLayer.lean ====
/-
  The array the kernel leaves, as one function of the program's arguments.

  Before the region the host forms the neighbour sums (a gather of the source rows scattered-added over the destination
  indices) and the neighbour counts (ones scatter-added over the same indices, laid out as a column). The region walks the
  100000 nodes in 20 blocks of 5000: at point t it fetches rows 5000 t … 5000 t + 4999 of the node features, of the sums and
  of the count column, the whole of the two weight matrices and of the bias, and writes back rows 5000 t … 5000 t + 4999
  of the result. What it writes at row e, column j of its block is the layer's entry for node 5000 t + e and output
  feature j; the 20 blocks are disjoint and fill the array; so the array ends holding the layer of the host's own sums and
  counts, every entry.
-/
import proofs.«102647_j30081950941520_1_alg».proof.Proof.Gen.KernelIdeal.Value
import proofs.«102647_j30081950941520_1_alg».proof.Proof.KernelBlock
import Idealize.ShloMosaic.Lib.Pipeline.Value
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Layer

open Cert.KernelIdeal Cert.KernelIdeal.Gen Cert.KernelIdeal.Value Cert.KernelIdeal.Block

variable (m : (ℓ : Loc nD τ sig) → Buf (Elt Ideal) ℓ) (ρ : Dev nD → PrngReg)

/-! ## What the host hands the region -/

/-- The neighbour sums: the rows of the features at the source indices (a negative index counted from the end), each
    added into the row of its destination index, starting from zeros. -/
def nbrSum (x0 : (⟨S100000x128, .f32⟩ : BufTy).Contents (Elt Ideal)) (x4 x5 : (⟨S1600000, .i32⟩ : BufTy).Contents (Elt Ideal)) :
    (⟨S100000x128, .f32⟩ : BufTy).Contents (Elt Ideal) :=
  Host.scatterAdd (F := Ideal) scatter_S100000x128_S1600000x1_S1600000x128_1_0_0_1 (broadcastInDim S100000x128 ![] bcast_S_S100000x128 (constant (F := Ideal) S_ .f32 0x00000000#32)) (broadcastInDim S1600000x1 ![0] bcast_S1600000_S1600000x1_0 (x4)) (Host.gather gather_S100000x128_S1600000x1_S1600000x128_1_0_n_n_0_1_1128 (x0) (broadcastInDim S1600000x1 ![0] bcast_S1600000_S1600000x1_0 (select (cmpi .slt (x5) (broadcastInDim S1600000 ![] bcast_S_S1600000 (constantI S_ 32 0#32))) (addi (x5) (broadcastInDim S1600000 ![] bcast_S_S1600000 (constantI S_ 32 100000#32))) (x5))))

/-- The neighbour counts: a one added at every destination index, starting from zeros. -/
def nbrCount (x4 : (⟨S1600000, .i32⟩ : BufTy).Contents (Elt Ideal)) : (⟨S100000, .f32⟩ : BufTy).Contents (Elt Ideal) :=
  Host.scatterAdd (F := Ideal) scatter_S100000_S1600000x1_S1600000_n_0_0_1 (broadcastInDim S100000 ![] bcast_S_S100000 (constant (F := Ideal) S_ .f32 0x00000000#32)) (broadcastInDim S1600000x1 ![0] bcast_S1600000_S1600000x1_0 (x4)) (broadcastInDim S1600000 ![] bcast_S_S1600000 (constant (F := Ideal) S_ .f32 0x3F800000#32))

/-- The region finds the neighbour sums in the buffer its second window stages. -/
theorem sums_at_entry (c : Dev nD) : (V m c main_v9 : S100000x128.Idx → EReal)
    = nbrSum (m ((c : Thread nD τ).loc main_arg0)) (m ((c : Thread nD τ).loc main_arg4)) (m ((c : Thread nD τ).loc main_arg5)) := by
  unfold nbrSum
  dsimp only [Gen.V, Gen.hostOps0]
  after_results

/-- The region finds the neighbour counts, as a column, in the buffer its third window stages. -/
theorem counts_at_entry (c : Dev nD) : (V m c main_v14 : S100000x1.Idx → EReal)
    = broadcastInDim S100000x1 ![0] bcast_S100000_S100000x1_0 (nbrCount (m ((c : Thread nD τ).loc main_arg4))) := by
  unfold nbrCount
  dsimp only [Gen.V, Gen.hostOps0]
  after_results

/-! ## The region's blocks

Every array is taken as a variable, tied to what the region finds only by an equation between whole arrays: an entry of
the sums or of the counts is never computed. -/

/-- The printed index maps over the 20 grid points: the three node windows and the result window sit at row block t,
    column block 0; the weight and bias windows never move. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

/-- Row e of the block at point t is node 5000 t + e. -/
def nodeOf (t : Fin cfg0.N) (e : Fin 5000) : Fin 100000 :=
  ⟨t.val * 5000 + e.val, by
    have h : t.val < 20 := Nat.lt_of_lt_of_eq t.isLt N_0
    have := e.isLt; omega⟩

/-- The feature block at point t: row e, lane k is the features' row of node 5000 t + e at lane k. -/
theorem read_features (c : Dev nD) (t : Fin cfg0.N) {X : S100000x128.Idx → EReal}
    (hX : (V m c main_arg0 : S100000x128.Idx → EReal) = X) (e : Fin 5000) (k : Fin 128) :
    (iblk m c 0 t : FVec Ideal S5000x128 .f32) (ix2 e k) = X (ix2 (nodeOf t e) k) := by
  obtain ⟨h0, h1, -⟩ := idx_facts t
  unfold iblk
  have hV : V m c (Pipeline.arrRef spec0 0) = X := hX
  rw [hV, View.read_apply]
  show X _ = _
  refine congrArg X (funext fun a => Fin.ext ?_)
  match a with
  | ⟨0, _⟩ => show win0_0.index t (0 : Fin 2) * 5000 + 1 * e.val = t.val * 5000 + e.val; rw [h0]; omega
  | ⟨1, _⟩ => show win0_0.index t (1 : Fin 2) * 128 + 1 * k.val = k.val; rw [h1]; omega

/-- The sums block at point t: row e, lane k is the sums' row of node 5000 t + e at lane k. -/
theorem read_sums (c : Dev nD) (t : Fin cfg0.N) {A : S100000x128.Idx → EReal}
    (hA : (V m c main_v9 : S100000x128.Idx → EReal) = A) (e : Fin 5000) (k : Fin 128) :
    (iblk m c 1 t : FVec Ideal S5000x128 .f32) (ix2 e k) = A (ix2 (nodeOf t e) k) := by
  obtain ⟨-, -, h0, h1, -⟩ := idx_facts t
  unfold iblk
  have hV : V m c (Pipeline.arrRef spec0 1) = A := hA
  rw [hV, View.read_apply]
  show A _ = _
  refine congrArg A (funext fun a => Fin.ext ?_)
  match a with
  | ⟨0, _⟩ => show win0_1.index t (0 : Fin 2) * 5000 + 1 * e.val = t.val * 5000 + e.val; rw [h0]; omega
  | ⟨1, _⟩ => show win0_1.index t (1 : Fin 2) * 128 + 1 * k.val = k.val; rw [h1]; omega

/-- The count block at point t: row e is the count column's entry of node 5000 t + e. -/
theorem read_counts (c : Dev nD) (t : Fin cfg0.N) {Dc : S100000x1.Idx → EReal}
    (hD : (V m c main_v14 : S100000x1.Idx → EReal) = Dc) (e : Fin 5000) :
    (iblk m c 2 t : FVec Ideal S5000x1 .f32) (ix2 e (0 : Fin 1)) = Dc (ix2 (nodeOf t e) (0 : Fin 1)) := by
  obtain ⟨-, -, -, -, h0, h1, -⟩ := idx_facts t
  unfold iblk
  have hV : V m c (Pipeline.arrRef spec0 2) = Dc := hD
  rw [hV, View.read_apply]
  show Dc _ = _
  refine congrArg Dc (funext fun a => Fin.ext ?_)
  match a with
  | ⟨0, _⟩ => show win0_2.index t (0 : Fin 2) * 5000 + 1 * e.val = t.val * 5000 + e.val; rw [h0]; omega
  | ⟨1, _⟩ => show win0_2.index t (1 : Fin 2) * 1 + 1 * 0 = 0; rw [h1]

/-- The first weight window's block at any point is the whole matrix. -/
theorem read_weight (c : Dev nD) (t : Fin cfg0.N) {W : S128x128.Idx → EReal}
    (hW : (V m c main_arg1 : S128x128.Idx → EReal) = W) (k j : Fin 128) :
    (iblk m c 3 t : FVec Ideal S128x128 .f32) (ix2 k j) = W (ix2 k j) := by
  obtain ⟨-, -, -, -, -, -, h0, h1, -⟩ := idx_facts t
  unfold iblk
  have hV : V m c (Pipeline.arrRef spec0 3) = W := hW
  rw [hV, View.read_apply]
  show W _ = _
  refine congrArg W (funext fun a => Fin.ext ?_)
  match a with
  | ⟨0, _⟩ => show win0_3.index t (0 : Fin 2) * 128 + 1 * k.val = k.val; rw [h0]; omega
  | ⟨1, _⟩ => show win0_3.index t (1 : Fin 2) * 128 + 1 * j.val = j.val; rw [h1]; omega

/-- The second weight window's block at any point is the whole matrix. -/
theorem read_rootWeight (c : Dev nD) (t : Fin cfg0.N) {R : S128x128.Idx → EReal}
    (hR : (V m c main_arg2 : S128x128.Idx → EReal) = R) (k j : Fin 128) :
    (iblk m c 4 t : FVec Ideal S128x128 .f32) (ix2 k j) = R (ix2 k j) := by
  obtain ⟨-, -, -, -, -, -, -, -, h0, h1, -⟩ := idx_facts t
  unfold iblk
  have hV : V m c (Pipeline.arrRef spec0 4) = R := hR
  rw [hV, View.read_apply]
  show R _ = _
  refine congrArg R (funext fun a => Fin.ext ?_)
  match a with
  | ⟨0, _⟩ => show win0_4.index t (0 : Fin 2) * 128 + 1 * k.val = k.val; rw [h0]; omega
  | ⟨1, _⟩ => show win0_4.index t (1 : Fin 2) * 128 + 1 * j.val = j.val; rw [h1]; omega

/-- The bias window's block at any point is the whole vector. -/
theorem read_bias (c : Dev nD) (t : Fin cfg0.N) {B : S128.Idx → EReal}
    (hB : (V m c main_arg3 : S128.Idx → EReal) = B) (j : Fin 128) :
    (iblk m c 5 t : FVec Ideal S128 .f32) (ix1 j) = B (ix1 j) := by
  obtain ⟨-, -, -, -, -, -, -, -, -, -, h0, -⟩ := idx_facts t
  unfold iblk
  have hV : V m c (Pipeline.arrRef spec0 5) = B := hB
  rw [hV, View.read_apply]
  show B _ = _
  refine congrArg B (funext fun a => Fin.ext ?_)
  match a with
  | ⟨0, _⟩ => show win0_5.index t (0 : Fin 1) * 128 + 1 * j.val = j.val; rw [h0]; omega

/-! ## The written block, the cover, the array -/

/-- The layer of given arrays, the counts given as a column: the count of node n is read at (n, 0). -/
def layerOfColumn (A X : S100000x128.Idx → EReal) (Dc : S100000x1.Idx → EReal) (W R : S128x128.Idx → EReal)
    (B : S128.Idx → EReal) : S100000x128.Idx → EReal :=
  Cert.LibMeanLayer.meanLayer (N := 100000) (K := 128) (D := 128) one32 A X
    (fun i => Dc (ix2 (n0 := 100000) (i 0) (0 : Fin 1))) W R B

theorem hz2 : (![0, 0] : Fin 2 → Nat) = fun _ => 0 := funext fun a => by fin_cases a <;> rfl
theorem hz1 : (![0] : Fin 1 → Nat) = fun _ => 0 := funext fun a => by fin_cases a; rfl

/-- Entry (e, j) of the result block at point t sits in the array at row 5000 t + e, column j. -/
theorem result_place (t : Fin cfg0.N) (e : Fin 5000) (j : Fin 128) :
    ((cfg0.win 6).blk t).view.emb (ix2 e j) = (ix2 (nodeOf t e) j : S100000x128.Idx) := by
  obtain ⟨-, -, -, -, -, -, -, -, -, -, -, h0, h1⟩ := idx_facts t
  funext a
  apply Fin.ext
  match a with
  | ⟨0, _⟩ => show win0_6.index t (0 : Fin 2) * 5000 + 1 * e.val = t.val * 5000 + e.val; rw [h0]; omega
  | ⟨1, _⟩ => show win0_6.index t (1 : Fin 2) * 128 + 1 * j.val = j.val; rw [h1]; omega

section Arrays

variable (c : Dev nD) {A X : S100000x128.Idx → EReal} {Dc : S100000x1.Idx → EReal} {W R : S128x128.Idx → EReal}
  {B : S128.Idx → EReal}
  (hX : (V m c main_arg0 : S100000x128.Idx → EReal) = X) (hA : (V m c main_v9 : S100000x128.Idx → EReal) = A)
  (hD : (V m c main_v14 : S100000x1.Idx → EReal) = Dc) (hW : (V m c main_arg1 : S128x128.Idx → EReal) = W)
  (hR : (V m c main_arg2 : S128x128.Idx → EReal) = R) (hB : (V m c main_arg3 : S128.Idx → EReal) = B)

include hX hA hD hW hR hB

/-- What point t writes back is block t of the layer of the arrays the region finds. -/
theorem flushed_eq (t : Fin cfg0.N) :
    (dats m 0 c).flushed 6 t = ((cfg0.win 6).blk t).view.read (Elt Ideal) (layerOfColumn A X Dc W R B) := by
  rw [Value.flushed6]
  unfold out0_6
  rw [View.canon_unit_zero hz2]
  simp only [View.ld_unit_zero (S := S5000x128) hz2, View.ld_unit_zero (S := S5000x1) hz2,
    View.ld_unit_zero (S := S128x128) hz2, View.ld_unit_zero (S := S128) hz1]
  funext y
  obtain ⟨e, j, rfl⟩ : ∃ (e : Fin 5000) (j : Fin 128), y = ix2 e j := ⟨y 0, y 1, eq_ix2 y⟩
  show k0_pay1 (F := Ideal) (iblk m c 2 t) (iblk m c 1 t) (iblk m c 3 t) (iblk m c 0 t) (iblk m c 4 t) (iblk m c 5 t) (ix2 e j)
    = layerOfColumn A X Dc W R B (((cfg0.win 6).blk t).view.emb (ix2 e j))
  rw [result_place t e j]
  refine (payload_apply _ _ _ _ _ _ e j).trans ?_
  unfold layerOfColumn
  rw [Cert.LibMeanLayer.meanLayer_ix2]
  exact Cert.LibMeanLayer.meanEntry_congr one32 (fun k => read_sums m c t hA e k) (fun k => read_features m c t hX e k)
    (read_counts m c t hD e) (fun k => read_weight m c t hW k j) (fun k => read_rootWeight m c t hR k j)
    (read_bias m c t hB j)

omit hX hA hD hW hR hB in
/-- An index of the array is in point t's block iff each coordinate is in the block's range on its axis. -/
theorem mem_block (t : Fin cfg0.N) (i : S100000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_v15).slice (win0_6.rect t)).set ↔ _
  rw [View.set_slice_whole, Rect.mem_set_unit]
  exact Iff.rfl

omit hX hA hD hW hR hB in
/-- Every entry of the array is in the block of the point its row falls in: row r is in block r / 5000. -/
theorem covered (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  obtain ⟨t, ht⟩ : ∃ t : Fin cfg0.N, t.val = (i 0).val / 5000 :=
    ⟨⟨(i 0).val / 5000, Nat.lt_of_lt_of_eq (show (i 0).val / 5000 < 20 by omega) N_0.symm⟩, rfl⟩
  obtain ⟨-, -, -, -, -, -, -, -, -, -, -, h0, h1⟩ := idx_facts t
  refine ⟨t, flush0_6 t, ?_⟩
  rw [mem_block]
  intro a
  match a with
  | ⟨0, _⟩ =>
    show win0_6.index t (0 : Fin 2) * 5000 ≤ (i 0).val ∧ (i 0).val < win0_6.index t (0 : Fin 2) * 5000 + 5000
    rw [h0, ht]; omega
  | ⟨1, _⟩ =>
    show win0_6.index t (1 : Fin 2) * 128 ≤ (i 1).val ∧ (i 1).val < win0_6.index t (1 : Fin 2) * 128 + 128
    rw [h1]; omega

/-- So the result array ends holding the layer of the arrays the region finds. -/
theorem final : (dats m 0 c).arrAt 6 cfg0.N = layerOfColumn A X Dc W R B :=
  (dats m 0 c).arrAt_eq_of_cover 6 (layerOfColumn A X Dc W R B) (fun t _ => flushed_eq m c hX hA hD hW hR hB t) covered

end Arrays

/-! ## In terms of the arguments -/

/-- A vector laid out as a column reads, at (n, 0), its entry n. -/
theorem column_apply (Dg : S100000.Idx → EReal) (n : Fin 100000) :
    broadcastInDim S100000x1 ![0] bcast_S100000_S100000x1_0 Dg (ix2 n (0 : Fin 1)) = Dg (ix1 n) := by
  refine broadcastInDim_apply ![0] bcast_S100000_S100000x1_0 Dg (ix2 n (0 : Fin 1)) (ix1 n) fun a => ?_
  match a with
  | ⟨0, _⟩ => show n.val = if (100000 : Nat) = 1 then 0 else n.val; rw [if_neg (by decide)]

/-- With the counts a vector laid out as a column, the layer is the layer of that vector. -/
theorem layerOfColumn_column (A X : S100000x128.Idx → EReal) (Dg : S100000.Idx → EReal) (W R : S128x128.Idx → EReal)
    (B : S128.Idx → EReal) :
    layerOfColumn A X (broadcastInDim S100000x1 ![0] bcast_S100000_S100000x1_0 Dg) W R B
      = Cert.LibMeanLayer.meanLayer (N := 100000) (K := 128) (D := 128) one32 A X Dg W R B := by
  unfold layerOfColumn
  refine congrArg (fun d => Cert.LibMeanLayer.meanLayer (N := 100000) (K := 128) (D := 128) one32 A X d W R B) (funext fun i => ?_)
  rw [column_apply Dg (i 0)]
  exact congrArg Dg (eq_ix1 i).symm

/-- The run, read: the result array at the layer of the host's sums and counts, the arguments unchanged. -/
theorem run : θ_run defs (onTc (τ := τ) (main (F := Ideal))) ⟨m, fun _ => 0, ρ⟩ fun r => ∀ c : Dev nD,
      r.2.mem ((c : Thread nD τ).loc main_v15)
        = Cert.LibMeanLayer.meanLayer (N := 100000) (K := 128) (D := 128) one32
            (nbrSum (m ((c : Thread nD τ).loc main_arg0)) (m ((c : Thread nD τ).loc main_arg4)) (m ((c : Thread nD τ).loc main_arg5)))
            (m ((c : Thread nD τ).loc main_arg0)) (nbrCount (m ((c : Thread nD τ).loc main_arg4)))
            (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans ((final m c (V_main_arg0 m c) (sums_at_entry m c) (counts_at_entry m c)
      (V_main_arg1 m c) (V_main_arg2 m c) (V_main_arg3 m c)).trans (layerOfColumn_column _ _ _ _ _ _)), (h c).2⟩)
    (Value.run_blocks m ρ)

end Cert.KernelIdeal.Layer

end
-- ==== Proof.ReferenceLayer.lean ====
/-
  The host program's result, entry by entry.

  The host forms the neighbour sums a and the neighbour counts d of every node (a gather of the source rows and two
  scatter-adds over the destination indices), replaces each count by the larger of it and one, lays the counts out over
  the 128 lanes, divides the sums by them, multiplies the quotient by the first weight matrix and the node features by the
  second, adds the two products, and adds the bias laid out over the rows. Entry (n, j) of the result is therefore

      ( ∑ₖ (a(n, k) / max(d(n), 1)) · w(k, j)  +  ∑ₖ x(n, k) · r(k, j) )  +  b(j),

  the layer of the sums and counts the host itself formed. The sums and the counts stay unopened: which rows a
  scatter-add touches depends on the index arrays' values, and nothing here needs to know.
-/
import proofs.«102647_j30081950941520_1_alg».proof.Proof.Gen.ReferenceIdeal.Read
import proofs.«102647_j30081950941520_1_alg».proof.Proof.LibMeanLayer

noncomputable section

open Idealize.ShloMosaic Idealize.ShloMosaic.ValueIdx

namespace Cert.ReferenceIdeal.Layer

open Cert.ReferenceIdeal Cert.ReferenceIdeal.Gen Cert.ReferenceIdeal.Read

/-- The value a neighbour count is compared with: the float one. -/
abbrev one32 : EReal := Ideal.ofBits .f32 0x3F800000#32

/-- The first product's left factor at (n, j), summand k, is read in row n at lane k. -/
theorem lidx19 (n : Fin 100000) (j k : Fin 128) : lidx_main_v19 (ix2 n j) k = ix2 n k :=
  funext fun a => by match a with | ⟨0, _⟩ => rfl | ⟨1, _⟩ => rfl
/-- Its right factor is read in row k at column j. -/
theorem ridx19 (n : Fin 100000) (j k : Fin 128) : ridx_main_v19 (ix2 n j) k = ix2 k j :=
  funext fun a => by match a with | ⟨0, _⟩ => rfl | ⟨1, _⟩ => rfl
/-- The second product reads its factors at the same places. -/
theorem lidx20 (n : Fin 100000) (j k : Fin 128) : lidx_main_v20 (ix2 n j) k = ix2 n k :=
  funext fun a => by match a with | ⟨0, _⟩ => rfl | ⟨1, _⟩ => rfl
theorem ridx20 (n : Fin 100000) (j k : Fin 128) : ridx_main_v20 (ix2 n j) k = ix2 k j :=
  funext fun a => by match a with | ⟨0, _⟩ => rfl | ⟨1, _⟩ => rfl
/-- The bias laid out over the rows reads, at (n, j), its entry j. -/
theorem idxBias (n : Fin 100000) (j : Fin 128) : idx_main_v22 (idx_main_v23 (ix2 n j)) = ix1 j :=
  funext fun a => by match a with | ⟨0, _⟩ => rfl
/-- The counts laid out over the lanes read, at (n, k), the count of node n. -/
theorem idxCount (n : Fin 100000) (k : Fin 128) : idx_main_v16 (idx_main_v17 (ix2 n k)) = ix1 n :=
  funext fun a => by match a with | ⟨0, _⟩ => rfl

/-- The host's result is the layer of the host's own neighbour sums and counts. -/
theorem result_eq (x0 : (⟨S100000x128, .f32⟩ : BufTy).Contents (Elt Ideal)) (x1 x2 : (⟨S128x128, .f32⟩ : BufTy).Contents (Elt Ideal))
    (x3 : (⟨S128, .f32⟩ : BufTy).Contents (Elt Ideal)) (x4 x5 : (⟨S1600000, .i32⟩ : BufTy).Contents (Elt Ideal)) :
    val_main_v24 (F := Ideal) x0 x1 x2 x3 x4 x5
      = Cert.LibMeanLayer.meanLayer (N := 100000) (K := 128) (D := 128) one32 (val_main_v9 (F := Ideal) x0 x4 x5) x0
          (val_main_v13 (F := Ideal) x4) x1 x2 x3 := by
  funext i
  obtain ⟨n, j, rfl⟩ : ∃ (n : Fin 100000) (j : Fin 128), i = ix2 n j := ⟨i 0, i 1, eq_ix2 i⟩
  rw [Cert.LibMeanLayer.meanLayer_ix2]
  unfold Cert.LibMeanLayer.meanEntry
  rw [val_main_v24_apply, val_main_v21_apply, val_main_v19_apply, val_main_v20_apply, val_main_v23_apply, val_main_v22_apply,
    idxBias n j, Ideal.addf_def, Ideal.addf_def]
  refine congrArg₂ (· + ·) (congrArg₂ (· + ·) (Finset.sum_congr rfl fun k _ => ?_) (Finset.sum_congr rfl fun k _ => ?_)) rfl
  · -- summand k of the first product: the quotient in row n at lane k, times the first weight matrix at (k, j)
    rw [lidx19 n j k, ridx19 n j k, val_main_v18_apply, val_main_v17_apply, val_main_v16_apply, idxCount n k,
      val_main_v15_apply, val_main_v14_apply, val_main_cst_3_apply, Ideal.hostDivf_def, Ideal.maximumf_def, Ideal.ofBits_def]
  · -- summand k of the second product: the node's own row at lane k, times the second weight matrix at (k, j)
    rw [lidx20 n j k, ridx20 n j k]

end Cert.ReferenceIdeal.Layer

end
-- ==== Proof.lean ====
/-
  A graph layer that averages over neighbours, computed two ways, gives the same array over the extended reals.

  Both programs start alike: the host gathers the feature rows at the source indices and scatter-adds them over the
  destination indices (the neighbour sums a), and scatter-adds ones over the same indices (the neighbour counts d).
  The kernel then walks the 100000 nodes in 20 blocks of 5000 rows and, block by block, forms

      ( ∑ₖ (a(n, k) / max(d(n), 1)) · w(k, j)  +  ∑ₖ x(n, k) · r(k, j) )  +  b(j)

  on the matrix unit; the reference forms the same expression for the whole array with host operations. The two agree
  term by term: the same quotient (the larger of the count and one is taken before the division on both sides), each
  product a sum over the 128 lanes, the same order of the two additions. No law of arithmetic beyond reading each
  operation at an entry is used, so the finiteness of the inputs is never opened. The sums and the counts are the same
  expressions of the arguments in both programs and are never evaluated.

  The three programs run, fault-free, with their arguments unchanged: the two kernels' frames are the generated ones, the
  reference's is its generated run with the result dropped. The idealization rewrote nothing, so there is nothing to
  preserve.
-/
import proofs.«102647_j30081950941520_1_alg».proof.Defs
import proofs.«102647_j30081950941520_1_alg».proof.Proof.Gen.Kernel
import proofs.«102647_j30081950941520_1_alg».proof.Proof.Gen.Kernel.Frame
import proofs.«102647_j30081950941520_1_alg».proof.Proof.Gen.KernelIdeal
import proofs.«102647_j30081950941520_1_alg».proof.Proof.Gen.KernelIdeal.Frame
import proofs.«102647_j30081950941520_1_alg».proof.Proof.Gen.KernelIdeal.Value
import proofs.«102647_j30081950941520_1_alg».proof.Proof.Gen.ReferenceIdeal
import proofs.«102647_j30081950941520_1_alg».proof.Proof.Gen.ReferenceIdeal.Run
import proofs.«102647_j30081950941520_1_alg».proof.Proof.Gen.ReferenceIdeal.Read
import proofs.«102647_j30081950941520_1_alg».proof.Proof.Gen.Pre_finite_inputs
import proofs.«102647_j30081950941520_1_alg».proof.Proof.KernelLayer
import proofs.«102647_j30081950941520_1_alg».proof.Proof.ReferenceLayer
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The reference's neighbour sums are the kernel program's: the same gather and scatter-add of the same arguments. -/
theorem sums_agree (x0 : (⟨Cert.ReferenceIdeal.S100000x128, .f32⟩ : BufTy).Contents (Elt Ideal))
    (x4 x5 : (⟨Cert.ReferenceIdeal.S1600000, .i32⟩ : BufTy).Contents (Elt Ideal)) :
    Cert.ReferenceIdeal.Read.val_main_v9 (F := Ideal) x0 x4 x5 = Cert.KernelIdeal.Layer.nbrSum x0 x4 x5 := rfl

/-- The reference's neighbour counts are the kernel program's: the same scatter-add of ones. -/
theorem counts_agree (x4 : (⟨Cert.ReferenceIdeal.S1600000, .i32⟩ : BufTy).Contents (Elt Ideal)) :
    Cert.ReferenceIdeal.Read.val_main_v13 (F := Ideal) x4 = Cert.KernelIdeal.Layer.nbrCount x4 := rfl

/-- From memories that agree on the arguments both programs end with the layer of the same sums, counts, features,
    weights and bias. -/
theorem algebraic : Cert.algebraic_KernelIdeal_ReferenceIdeal := by
  intro m ρ m' ρ' _ hagree
  refine ⟨_, Cert.KernelIdeal.Layer.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, Cert.ReferenceIdeal.Layer.result_eq, sums_agree, counts_agree,
    (hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
